-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192 : Shape := ⟨1, ![8192]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x4096 .f32) (main_arg1 : FVec F S8192 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  main_v8
-- ==== Kernel.lean ====
abbrev S8192x4096 : Shape := ⟨2, ![8192, 4096]⟩
abbrev S8192 : Shape := ⟨1, ![8192]⟩
abbrev S8192x1 : Shape := ⟨2, ![8192, 1]⟩
abbrev S512x4096 : Shape := ⟨2, ![512, 4096]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S8192, .f32⟩
  | .hbm, ⟨2, _⟩ => ⟨S8192x1, .f32⟩
  | .hbm, ⟨3, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S512x1, .f32⟩
  | .local _ .vmem, ⟨3, _⟩ => ⟨S512x1, .f32⟩
  | .local _ .vmem, ⟨4, _⟩ => ⟨S512x4096, .f32⟩
  | .local _ .vmem, ⟨5, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8192_S8192x1 : S8192.ShapeCasts S8192x1
  inb_S512x4096_S512x4096_0_0 : ∀ a, (![0, 0] : Fin 2 → Nat) a + S512x4096.size a ≤ S512x4096.size a
  h_S512x4096 : 0 < S512x4096.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x4096 : S512x1.Broadcasts S512x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .f32 = 32 ∨ (Rect.block (s := S8192x1) S512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S8192x4096.size a
  hwx0_2 : ∀ i : grid0.Coords, EltTy.bits .f32 = 32 ∨ (Rect.block (s := S8192x4096) S512x4096.size (cc0_transform_2 i) (hinb0_2 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S8192 : Shape := ⟨1, ![8192]⟩
abbrev S8192x1 : Shape := ⟨2, ![8192, 1]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192, .f32⟩
  | .hbm, ⟨2, _⟩ => ⟨S8192x1, .f32⟩
  | .hbm, ⟨3, _⟩ => ⟨S8192x4096, .f32⟩
  | .hbm, ⟨4, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192x1_S8192x4096_0_1 : S8192x1.BroadcastsInDim S8192x4096 (![0, 1] : Fin 2 → Fin S8192x4096.rank)

variable [Facts₀]

class Facts : Prop extends Facts₀ where

variable [Facts]
-- ==== Proof.RowScale.lean ====
/-
  Scaling the rows of a matrix. For a matrix x with 8192 rows and 4096 columns and one scale f r per row, the
  row-scaled matrix has entry (r, q) equal to x (r, q) · f r: the product diag(f) · x written entry by entry.

  Whether the scale stands on the right of the entry or on its left makes no difference on the extended reals:
  their product is commutative everywhere, at the infinities and at 0 · ∞ = 0 as well. So nothing below asks the
  entries to be finite.

  The scales may also be held as a matrix of one column (the vector re-laid row-major, which moves no element):
  entry (r, 0) of the column is f r.
-/
import Idealize.ShloMosaic.PureOps.Ideal
import Idealize.ShloMosaic.Lib.ValueIdx
import Idealize.ShloMosaic.Lib.Pipeline.Value

noncomputable section

namespace Cert.RowScale

open Idealize.ShloMosaic Idealize.ShloMosaic.ValueIdx

/-- The index sets: the matrix's, the vector of scales', and the scales' as a one-column matrix. -/
abbrev Mat : Shape := ⟨2, ![8192, 4096]⟩
abbrev Vct : Shape := ⟨1, ![8192]⟩
abbrev Col : Shape := ⟨2, ![8192, 1]⟩

/-- The row of a matrix index, as a number below 8192. -/
abbrev rowOf (i : Mat.Idx) : Fin 8192 := ⟨(i 0).val, idx2_lt0 i⟩

/-- The row-scaled matrix: entry `i` is `x i` times the scale of `i`'s row. -/
def rowScale (x : Mat.Idx → EReal) (f : Vct.Idx → EReal) : Mat.Idx → EReal :=
  fun i => x i * f (ix1 (rowOf i))

/-- At row `r` and column `q`. -/
theorem rowScale_at (x : Mat.Idx → EReal) (f : Vct.Idx → EReal) (r : Fin 8192) (q : Fin 4096) :
    rowScale x f (ix2 r q) = x (ix2 r q) * f (ix1 r) := rfl

/-- The scale on the left instead: the same matrix, by commutativity of the extended reals' product. -/
theorem scale_left (x : Mat.Idx → EReal) (f : Vct.Idx → EReal) (i : Mat.Idx) :
    f (ix1 (rowOf i)) * x i = rowScale x f i := mul_comm _ _

/-- A vector re-laid as one column keeps its elements: entry `(r, 0)` of the column is element `r`. Row-major, the
    position of `(r, 0)` among 8192 × 1 is `r · 1 + 0`, and the position of `r` among 8192 is `r`. -/
theorem column_at {α : Type} (f : Vct.Idx → α) (h : Vct.ShapeCasts Col) (r : Fin 8192) :
    shapeCast Col f h (ix2 r (0 : Fin 1)) = f (ix1 r) := by
  refine shapeCast_apply f h (ix2 r (0 : Fin 1)) (ix1 r) ?_
  rw [Shape.rowMajor_val_one, Shape.rowMajor_val_two]
  show r.val = r.val * 1 + 0
  omega

end Cert.RowScale

end
-- ==== Proof.RefRowScale.lean ====
/-
  The reference, read entry by entry. It spreads the vector of scales along a new unit axis (entry (r, 0) is f r),
  spreads that column across the 4096 columns (entry (r, q) is the column's (r, 0)), and multiplies by the matrix with
  the scale on the LEFT: entry (r, q) of its result is f r · x (r, q). By commutativity this is the row-scaled matrix.
-/
import proofs.«135394_j29824252903576_1_alg».proof.Proof.Gen.ReferenceIdeal.Read
import proofs.«135394_j29824252903576_1_alg».proof.Proof.RowScale

noncomputable section

namespace Cert.ReferenceIdeal.RefValue

open Cert.ReferenceIdeal Cert.ReferenceIdeal.Read Idealize.ShloMosaic Idealize.ShloMosaic.ValueIdx Cert.RowScale

/-- Through the two spreadings, entry `i` of the broadcast scales is the scale of `i`'s row. -/
theorem spread_row (i : S8192x4096.Idx) : idx_main_v0 (idx_main_v1 i) = ix1 (rowOf i) :=
  funext fun a => Fin.ext (by match a with | ⟨0, _⟩ => rfl)

/-- The reference's result, as a function of the matrix and the scales, is the row-scaled matrix. -/
theorem reference_eq (x0 : (⟨S8192x4096, .f32⟩ : BufTy).Contents (Elt Ideal)) (x1 : (⟨S8192, .f32⟩ : BufTy).Contents (Elt Ideal)) :
    val_main_v2 (F := Ideal) x0 x1 = rowScale x0 x1 := by
  funext i
  rw [val_main_v2_apply, val_main_v1_apply, val_main_v0_apply, spread_row]
  exact scale_left x0 x1 i

end Cert.ReferenceIdeal.RefValue

end
-- ==== Proof.KernelRowScale.lean ====
/-
  The kernel's result array, entry by entry.

  Before the region the scales are re-laid as a matrix of one column, which moves no element: entry (r, 0) of the
  column is f r. The region walks 16 grid points. Point t takes rows 512·t … 512·t + 511: the 512 × 4096 block of x
  at those rows and the 512 × 1 block of the column at the same rows. Inside a block, entry (a, b) of the result is
  the x-block's (a, b) times the column block's (a, 0), the column entry being spread along the row. Read against
  the whole arrays, with r = 512·t + a, this is x (r, b) · f r: the block is the restriction of the row-scaled
  matrix to those rows. The 16 blocks together hold every row (row r lies in the block of point r / 512), and each
  block agrees with the one row-scaled matrix, so after the run the whole result array is that matrix.
-/
import proofs.«135394_j29824252903576_1_alg».proof.Proof.Gen.KernelIdeal.Value
import proofs.«135394_j29824252903576_1_alg».proof.Proof.RowScale
import Idealize.ShloMosaic.Lib.StableHlo.Run

set_option maxRecDepth 16384

noncomputable section

namespace Cert.KernelIdeal.RowScaleValue

open Cert.KernelIdeal Cert.KernelIdeal.Gen Cert.KernelIdeal.Value Idealize.ShloMosaic Idealize.ShloMosaic.TcCoe Idealize.SL.Sem Idealize.ShloMosaic.ValueIdx Cert.RowScale Idealize.ShloMosaic.StableHlo
open Idealize.ShloMosaic.Pipeline (Dat)

variable (m : (ℓ : Loc nD τ sig) → Buf (Elt Ideal) ℓ) (ρ : Dev nD → PrngReg)

/-- The matrix and the scales as launched, at their literal index sets. -/
abbrev xarr (c : Dev nD) : S8192x4096.Idx → EReal := m ((c : Thread nD τ).loc main_arg0)
abbrev farr (c : Dev nD) : S8192.Idx → EReal := m ((c : Thread nD τ).loc main_arg1)

/-- The matrix and the one-column matrix of scales as the region finds them. -/
abbrev xV (c : Dev nD) : S8192x4096.Idx → EReal := V m c main_arg0
abbrev colV (c : Dev nD) : S8192x1.Idx → EReal := V m c main_v0

/-- Nothing before the region writes the matrix: the region finds it as launched. -/
theorem xV_eq (c : Dev nD) : xV m c = xarr m c := V_main_arg0 m c

/-- The column the region finds is the vector of scales re-laid row-major as 8192 × 1. -/
theorem column_eq (c : Dev nD) : colV m c = shapeCast S8192x1 (farr m c) shapeCasts_S8192_S8192x1 := by
  show (V m c main_v0 : S8192x1.Idx → EReal) = _
  dsimp only [Gen.V, Gen.hostOps0]
  after_results
  rfl

/-- So its entry `(r, 0)` is the scale of row `r`. -/
theorem column_entry (c : Dev nD) (r : Fin 8192) : colV m c (ix2 r (0 : Fin 1)) = farr m c (ix1 r) := by
  rw [column_eq]
  exact column_at (farr m c) shapeCasts_S8192_S8192x1 r

/-- The body's loads and its store start at the block's origin. -/
theorem hz : (![0, 0] : Fin 2 → Nat) = fun _ => 0 := funext fun a => by fin_cases a <;> rfl

/-- Inside one block: entry `(a, b)` of what the body stores is the matrix block's `(a, b)` times the column block's
    `(a, 0)` — the column entry spread along its row, then an entrywise product. Stated for any two blocks. -/
theorem block_entry (P0 : Vec Ideal S512x4096 .f32) (P1 : Vec Ideal S512x1 .f32) (y : S512x4096.Idx) :
    out0_2 P0 P1 y = P0 y * P1 (ix2 (⟨(y 0).val, idx2_lt0 y⟩ : Fin 512) (0 : Fin 1)) := by
  unfold out0_2
  refine (canon2_eq _ _ y).trans ?_
  simp only [View.ld_unit_zero (S := S512x4096) hz, View.ld_unit_zero (S := S512x1) hz]
  have e0 : ix2_0 y = y := funext fun a => Fin.ext (by match a with | ⟨0, _⟩ => rfl | ⟨1, _⟩ => rfl)
  have e1 : ix2_1 y = ix2 (⟨(y 0).val, idx2_lt0 y⟩ : Fin 512) (0 : Fin 1) :=
    funext fun a => Fin.ext (by match a with | ⟨0, _⟩ => rfl | ⟨1, _⟩ => rfl)
  show P0 (ix2_0 y) * P1 (ix2_1 y) = _
  rw [e0, e1]

/-- Where the blocks sit, decided over the 16 points: the matrix's, the column's and the result's block at a point all
    start at the same block-row; none is offset along the columns; and the result's block-rows stay below 16. -/
theorem idx_facts : ∀ t : Fin cfg0.N,
    win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (1 : Fin 2) = 0
    ∧ win0_2.index t (0 : Fin 2) ≤ 15 :=
  (by decide +kernel : ∀ t : Fin grid0.N, _)

/-- Every one of the 16 block-rows is some point's. -/
theorem idx_onto : ∀ q : Fin 16, ∃ t : Fin cfg0.N, win0_2.index t = ![q.val, 0] :=
  (by decide +kernel : ∀ q : Fin 16, ∃ t : Fin grid0.N, win0_2.index t = ![q.val, 0])

/-- What point `t` writes back is the row-scaled matrix restricted to `t`'s rows. A block entry `(a, b)` sits at array
    entry `(512·t + a, b)` in the matrix and in the result, and the column block's `(a, 0)` sits at `(512·t + a, 0)`,
    whose value is the scale of that row. -/
theorem flushed_eq (c : Dev nD) (t : Fin cfg0.N) :
    (dats m 0 c).flushed 2 t = ((cfg0.win 2).blk t).view.read (Elt Ideal) (rowScale (xarr m c) (farr m c)) := by
  rw [Value.flushed2]
  funext j
  show out0_2 (iblk m c 0 t) (iblk m c 1 t) j = _
  refine (block_entry (iblk m c 0 t) (iblk m c 1 t) j).trans ?_
  show xV m c (((cfg0.win 0).blk t).view.emb j)
      * colV m c (((cfg0.win 1).blk t).view.emb (ix2 (⟨(j 0).val, idx2_lt0 j⟩ : Fin 512) (0 : Fin 1)))
    = rowScale (xarr m c) (farr m c) (((cfg0.win 2).blk t).view.emb j)
  obtain ⟨e0, e1, e2, e3, e4, e5⟩ := idx_facts t
  have hj0 : (j 0).val < 512 := (j 0).isLt
  have hj1 : (j 1).val < 4096 := (j 1).isLt
  have h0 : ((cfg0.win 0).blk t).view.emb j = ((cfg0.win 2).blk t).view.emb j := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 4096 + 1 * (j 1).val = win0_2.index t (1 : Fin 2) * 4096 + 1 * (j 1).val; omega
  have h1 : ((cfg0.win 1).blk t).view.emb (ix2 (⟨(j 0).val, idx2_lt0 j⟩ : Fin 512) (0 : Fin 1))
      = ix2 (rowOf (((cfg0.win 2).blk t).view.emb j)) (0 : Fin 1) := by
    funext a; apply Fin.ext
    match a with
    | ⟨0, _⟩ => show win0_1.index t (0 : Fin 2) * 512 + 1 * (j 0).val = win0_2.index t (0 : Fin 2) * 512 + 1 * (j 0).val; omega
    | ⟨1, _⟩ => show win0_1.index t (1 : Fin 2) * 1 + 1 * 0 = 0; omega
  rw [h0, h1, xV_eq, column_entry]
  rfl

/-- An entry of the result array lies in point `t`'s block iff each coordinate lies in the block's range on its axis. -/
theorem mem_blk (t : Fin cfg0.N) (i : S8192x4096.Idx) :
    i ∈ ((cfg0.win 2).blk t).view.set ↔ ∀ a : Fin 2, win0_2.index t a * S512x4096.size a ≤ (i a).val ∧ (i a).val < win0_2.index t a * S512x4096.size a + S512x4096.size a := by
  show i ∈ ((View.whole main_v1).slice (win0_2.rect t)).set ↔ _
  rw [View.set_slice_whole, Rect.mem_set_unit]
  exact Iff.rfl

/-- The blocks hold every entry: row `r` is in the block of point `r / 512`, and a block spans all 4096 columns. -/
theorem cover (i : S8192x4096.Idx) : ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨t, ht⟩ := idx_onto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 4096 ≤ (i 1).val ∧ (i 1).val < win0_2.index t (1 : Fin 2) * 4096 + 4096; omega

/-- After the last point the result array is the row-scaled matrix. -/
theorem final (c : Dev nD) : (dats m 0 c).arrAt 2 cfg0.N = rowScale (xarr m c) (farr m c) :=
  (dats m 0 c).arrAt_eq_of_cover 2 (rowScale (xarr m c) (farr m c)) (fun t _ => flushed_eq m c t) cover

/-- Every weakly fair execution ends with the result at the row-scaled matrix of the arguments, the arguments unchanged. -/
theorem run : θ_run defs (onTc (τ := τ) (main (F := Ideal))) ⟨m, fun _ => 0, ρ⟩ fun r => ∀ c : Dev nD,
      r.2.mem ((c : Thread nD τ).loc main_v1) = rowScale (xarr m c) (farr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.RowScaleValue
end
-- ==== Proof.lean ====
/-
  Row scaling, diag(f) · x, computed two ways on an 8192 × 4096 matrix x and 8192 scales f.

  The kernel takes the rows 512 at a time and multiplies each entry by its row's scale, the scale on the right:
  x (r, q) · f r. The reference spreads the scales across the columns and multiplies with the scale on the left:
  f r · x (r, q). On the extended reals the product is commutative everywhere (at the infinities and at 0 · ∞ = 0 too),
  so the two results are the same matrix for all inputs; the finiteness of the inputs is never used.

  The three runs terminate with the arguments unchanged; the idealized kernel is the kernel's own text read over the
  extended reals (no rewrite was applied, so there is nothing to preserve); and the two idealized programs end at the
  row-scaled matrix of their common arguments.
-/
import proofs.«135394_j29824252903576_1_alg».proof.Defs
import proofs.«135394_j29824252903576_1_alg».proof.Proof.Gen.Kernel
import proofs.«135394_j29824252903576_1_alg».proof.Proof.Gen.Kernel.Skeleton
import proofs.«135394_j29824252903576_1_alg».proof.Proof.Gen.Kernel.Launch
import proofs.«135394_j29824252903576_1_alg».proof.Proof.Gen.Kernel.Points
import proofs.«135394_j29824252903576_1_alg».proof.Proof.Gen.Kernel.Frame
import proofs.«135394_j29824252903576_1_alg».proof.Proof.Gen.KernelIdeal
import proofs.«135394_j29824252903576_1_alg».proof.Proof.Gen.KernelIdeal.Skeleton
import proofs.«135394_j29824252903576_1_alg».proof.Proof.Gen.KernelIdeal.Launch
import proofs.«135394_j29824252903576_1_alg».proof.Proof.Gen.KernelIdeal.Points
import proofs.«135394_j29824252903576_1_alg».proof.Proof.Gen.KernelIdeal.Frame
import proofs.«135394_j29824252903576_1_alg».proof.Proof.Gen.ReferenceIdeal
import proofs.«135394_j29824252903576_1_alg».proof.Proof.Gen.Pre_finite_inputs
import proofs.«135394_j29824252903576_1_alg».proof.Proof.Gen.KernelIdeal.Value
import proofs.«135394_j29824252903576_1_alg».proof.Proof.Gen.ReferenceIdeal.Run
import proofs.«135394_j29824252903576_1_alg».proof.Proof.Gen.ReferenceIdeal.Read
import proofs.«135394_j29824252903576_1_alg».proof.Proof.RowScale
import proofs.«135394_j29824252903576_1_alg».proof.Proof.RefRowScale
import proofs.«135394_j29824252903576_1_alg».proof.Proof.KernelRowScale
import Idealize.ShloMosaic.Adequacy
import Idealize.ShloMosaic.Init

noncomputable section

namespace Cert.Proof

open Idealize.ShloMosaic Idealize.ShloMosaic.TcCoe Idealize.SL.Sem

/-- The kernel runs and leaves the matrix and the scales as they were. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference's three operations run and leave the arguments as they were. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both idealized programs end at the row-scaled matrix of the arguments they agree on: the kernel by its blocks,
    the reference by its three operations read at an entry and commutativity of the product. -/
theorem algebraic : Cert.algebraic_KernelIdeal_ReferenceIdeal := by
  intro m ρ m' ρ' _ hagree
  refine ⟨_, Cert.KernelIdeal.RowScaleValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v2_eq _ _).trans (Cert.ReferenceIdeal.RefValue.reference_eq _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
